-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S100000x128 : Shape := ⟨2, ![100000, 128]⟩
abbrev S256x4 : Shape := ⟨2, ![256, 4]⟩
abbrev S_ : Shape := ⟨0, ![]⟩

class Facts : Prop where
  bcast_S_S256x4 : S_.BroadcastsInDim S256x4 (![] : Fin 0 → Fin S256x4.rank)
  reducesTo_S256x4_S_d0_1 : S256x4.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S32x4096 32) (main_arg1 : IVec S100000x128 32) (main_arg2 : FVec F S256x4 .f32) : IVec S_ 1 :=
  let main_v0 : FVec F S256x4 .f32 := Host.absf main_arg2
  let main_cst : FVec F S_ .f32 := constant S_ .f32 0x7F800000#32
  let main_v1 : FVec F S256x4 .f32 := broadcastInDim S256x4 ![] bcast_S_S256x4 main_cst
  let main_v2 : IVec S256x4 1 := cmpf .olt main_v0 main_v1
  let main_c : IVec S_ 1 := constantI S_ 1 1#1
  let main_v3 : IVec S_ 1 := (fun x v => Host.reduce IntOp.andi x v reducesTo_S256x4_S_d0_1 h_S_) main_v2 main_c
  let main_c_0 : IVec S_ 32 := constantI S_ 32 0#32
  let main_v4 : IVec S100000x128 32 := broadcastInDim S100000x128 ![] bcast_S_S100000x128 main_c_0
  let main_v5 : IVec S100000x128 1 := cmpi .sge main_arg1 main_v4
  let main_c_1 : IVec S_ 1 := constantI S_ 1 1#1
  let main_v6 : IVec S_ 1 := (fun x v => Host.reduce IntOp.andi x v reducesTo_S100000x128_S_d0_1 h_S_) main_v5 main_c_1
  let main_v7 : IVec S_ 1 := andi main_v3 main_v6
  main_v7
-- ==== Kernel.lean ====
abbrev S32x4096 : Shape := ⟨2, ![32, 4096]⟩
abbrev S100000x128 : Shape := ⟨2, ![100000, 128]⟩
abbrev S256x4 : Shape := ⟨2, ![256, 4]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S4x256 : Shape := ⟨2, ![4, 256]⟩
abbrev S4x128 : Shape := ⟨2, ![4, 128]⟩
abbrev S131072x4x128 : Shape := ⟨3, ![131072, 4, 128]⟩
abbrev S2048x128 : Shape := ⟨2, ![2048, 128]⟩
abbrev S2048x4x128 : Shape := ⟨3, ![2048, 4, 128]⟩
abbrev S1x128 : Shape := ⟨2, ![1, 128]⟩
abbrev S2048x128x1 : Shape := ⟨3, ![2048, 128, 1]⟩
abbrev S2048x1x128 : Shape := ⟨3, ![2048, 1, 128]⟩
abbrev S131072x128x4 : Shape := ⟨3, ![131072, 128, 4]⟩
abbrev S131072x512 : Shape := ⟨2, ![131072, 512]⟩
abbrev S32x4096x512 : Shape := ⟨3, ![32, 4096, 512]⟩

abbrev nBuf : Space → Nat
  | .hbm => 20
  | .vmem => 6
  | .smem => 0
  | _ => 0

abbrev bufTy : (tb : Table) → Fin (tcTables nBuf tb) → BufTy
  | .hbm, ⟨0, _⟩ => ⟨S32x4096, .i32⟩
  | .hbm, ⟨1, _⟩ => ⟨S100000x128, .i32⟩
  | .hbm, ⟨2, _⟩ => ⟨S256x4, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x128, .i32⟩
  | .hbm, ⟨13, _⟩ => ⟨S4x256, .f32⟩
  | .hbm, ⟨14, _⟩ => ⟨S4x128, .f32⟩
  | .hbm, ⟨15, _⟩ => ⟨S4x128, .f32⟩
  | .hbm, ⟨16, _⟩ => ⟨S131072x4x128, .f32⟩
  | .hbm, ⟨17, _⟩ => ⟨S131072x128x4, .f32⟩
  | .hbm, ⟨18, _⟩ => ⟨S131072x512, .f32⟩
  | .hbm, ⟨19, _⟩ => ⟨S32x4096x512, .f32⟩
  | .local _ .vmem, ⟨0, _⟩ => ⟨S2048x128, .i32⟩
  | .local _ .vmem, ⟨1, _⟩ => ⟨S2048x128, .i32⟩
  | .local _ .vmem, ⟨2, _⟩ => ⟨S4x128, .f32⟩
  | .local _ .vmem, ⟨3, _⟩ => ⟨S4x128, .f32⟩
  | .local _ .vmem, ⟨4, _⟩ => ⟨S2048x4x128, .f32⟩
  | .local _ .vmem, ⟨5, _⟩ => ⟨S2048x4x128, .f32⟩
  | _, _ => ⟨S32x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4096_S131072 : S32x4096.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  transposes_S256x4_S4x256_1_0 : S256x4.Transposes [1, 0] S4x256
  slices_S4x256_S4x128_0_0 : S4x256.Slices ![0, 0] S4x128
  slices_S4x256_S4x128_0_128 : S4x256.Slices ![0, 128] S4x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S4x128_S1x128_0_0 : ∀ a, (![0, 0] : Fin 2 → Nat) a + S1x128.size a ≤ S4x128.size a
  h_S1x128 : 0 < S1x128.numel
  shapeCasts_S1x128_S1x128 : S1x128.ShapeCasts S1x128
  broadcasts_S1x128_S2048x128 : S1x128.Broadcasts S2048x128
  shapeCasts_S2048x128_S2048x128x1 : S2048x128.ShapeCasts S2048x128x1
  shapeCasts_S2048x128x1_S2048x128 : S2048x128x1.ShapeCasts S2048x128
  inb_S2048x4x128_S2048x1x128_0_0_0 : ∀ a, (![0, 0, 0] : Fin 3 → Nat) a + S2048x1x128.size a ≤ S2048x4x128.size a
  h_S2048x1x128 : 0 < S2048x1x128.numel
  shapeCasts_S2048x1x128_S2048x128 : S2048x1x128.ShapeCasts S2048x128
  shapeCasts_S2048x128_S2048x1x128 : S2048x128.ShapeCasts S2048x1x128
  inb_S4x128_S1x128_1_0 : ∀ a, (![1, 0] : Fin 2 → Nat) a + S1x128.size a ≤ S4x128.size a
  inb_S2048x4x128_S2048x1x128_0_1_0 : ∀ a, (![0, 1, 0] : Fin 3 → Nat) a + S2048x1x128.size a ≤ S2048x4x128.size a
  inb_S4x128_S1x128_2_0 : ∀ a, (![2, 0] : Fin 2 → Nat) a + S1x128.size a ≤ S4x128.size a
  inb_S2048x4x128_S2048x1x128_0_2_0 : ∀ a, (![0, 2, 0] : Fin 3 → Nat) a + S2048x1x128.size a ≤ S2048x4x128.size a
  inb_S4x128_S1x128_3_0 : ∀ a, (![3, 0] : Fin 2 → Nat) a + S1x128.size a ≤ S4x128.size a
  inb_S2048x4x128_S2048x1x128_0_3_0 : ∀ a, (![0, 3, 0] : Fin 3 → Nat) a + S2048x1x128.size a ≤ S2048x4x128.size a
  transposes_S131072x4x128_S131072x128x4_0_2_1 : S131072x4x128.Transposes [0, 2, 1] S131072x128x4
  shapeCasts_S131072x128x4_S131072x512 : S131072x128x4.ShapeCasts S131072x512
  shapeCasts_S131072x512_S32x4096x512 : S131072x512.ShapeCasts S32x4096x512
  gather_S100000x128_S131072x1_S131072x128_1_0_n_n_0_1_1128_wf : GatherDims.WF S100000x128 S131072x1 S131072x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .i32 = 32 ∨ (Rect.block (s := S131072x128) S2048x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4x128.size a ≤ S131072x4x128.size a
  hwx0_3 : ∀ i : grid0.Coords, EltTy.bits .f32 = 32 ∨ (Rect.block (s := S131072x4x128) S2048x4x128.size (cc0_transform_3 i) (hinb0_3 i)).WholeWords (EltTy.packing .f32)

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf

abbrev win0_0 : Pipeline.Window sig grid0 :=
  Pipeline.Window.ofSpec (Memref.whole main_v7) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x4x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S100000x128 : Shape := ⟨2, ![100000, 128]⟩
abbrev S256x4 : Shape := ⟨2, ![256, 4]⟩
abbrev S_ : Shape := ⟨0, ![]⟩
abbrev S32x4096x1 : Shape := ⟨3, ![32, 4096, 1]⟩
abbrev S32x4096x128 : Shape := ⟨3, ![32, 4096, 128]⟩
abbrev S32x4096x128x1 : Shape := ⟨4, ![32, 4096, 128, 1]⟩
abbrev S32x4096x128x4 : Shape := ⟨4, ![32, 4096, 128, 4]⟩
abbrev S32x4096x512 : Shape := ⟨3, ![32, 4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S32x4096, .i32⟩
  | .hbm, ⟨1, _⟩ => ⟨S100000x128, .i32⟩
  | .hbm, ⟨2, _⟩ => ⟨S256x4, .f32⟩
  | .hbm, ⟨3, _⟩ => ⟨S_, .i32⟩
  | .hbm, ⟨4, _⟩ => ⟨S32x4096, .i32⟩
  | .hbm, ⟨5, _⟩ => ⟨S32x4096, .i1⟩
  | .hbm, ⟨6, _⟩ => ⟨S_, .i32⟩
  | .hbm, ⟨7, _⟩ => ⟨S32x4096, .i32⟩
  | .hbm, ⟨8, _⟩ => ⟨S32x4096, .i32⟩
  | .hbm, ⟨9, _⟩ => ⟨S32x4096, .i32⟩
  | .hbm, ⟨10, _⟩ => ⟨S32x4096x1, .i32⟩
  | .hbm, ⟨11, _⟩ => ⟨S32x4096x128, .i32⟩
  | .hbm, ⟨12, _⟩ => ⟨S_, .i32⟩
  | .hbm, ⟨13, _⟩ => ⟨S32x4096x128, .i32⟩
  | .hbm, ⟨14, _⟩ => ⟨S32x4096x128, .i1⟩
  | .hbm, ⟨15, _⟩ => ⟨S_, .i32⟩
  | .hbm, ⟨16, _⟩ => ⟨S32x4096x128, .i32⟩
  | .hbm, ⟨17, _⟩ => ⟨S32x4096x128, .i32⟩
  | .hbm, ⟨18, _⟩ => ⟨S32x4096x128, .i32⟩
  | .hbm, ⟨19, _⟩ => ⟨S32x4096x128x1, .i32⟩
  | .hbm, ⟨20, _⟩ => ⟨S32x4096x128x4, .f32⟩
  | .hbm, ⟨21, _⟩ => ⟨S32x4096x512, .f32⟩
  | _, _ => ⟨S32x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S_S32x4096x128 : S_.BroadcastsInDim S32x4096x128 (![] : Fin 0 → Fin S32x4096x128.rank)
  bcast_S32x4096x128_S32x4096x128x1_0_1_2 : S32x4096x128.BroadcastsInDim S32x4096x128x1 (![0, 1, 2] : Fin 3 → Fin S32x4096x128x1.rank)
  shapeCasts_S32x4096x128x4_S32x4096x512 : S32x4096x128x4.ShapeCasts S32x4096x512
  gather_S100000x128_S32x4096x1_S32x4096x128_2_0_n_n_0_2_1128_wf : GatherDims.WF S100000x128 S32x4096x1 S32x4096x128 [2] [0] [] [0] [] 2 ![1, 128]
  gather_S256x4_S32x4096x128x1_S32x4096x128x4_3_0_n_n_0_3_14_wf : GatherDims.WF S256x4 S32x4096x128x1 S32x4096x128x4 [3] [0] [] [0] [] 3 ![1, 4]

variable [Facts₀]

def gather_S100000x128_S32x4096x1_S32x4096x128_2_0_n_n_0_2_1128 : GatherDims S100000x128 S32x4096x1 S32x4096x128 where
  offsetDims := [2]
  collapsedSliceDims := [0]
  operandBatchingDims := []
  startIndicesBatchingDims := []
  startIndexMap := [0]
  indexVectorDim := 2
  sliceSizes := ![1, 128]
  wf := gather_S100000x128_S32x4096x1_S32x4096x128_2_0_n_n_0_2_1128_wf
def gather_S256x4_S32x4096x128x1_S32x4096x128x4_3_0_n_n_0_3_14 : GatherDims S256x4 S32x4096x128x1 S32x4096x128x4 where
  offsetDims := [3]
  collapsedSliceDims := [0]
  operandBatchingDims := []
  startIndicesBatchingDims := []
  startIndexMap := [0]
  indexVectorDim := 3
  sliceSizes := ![1, 4]
  wf := gather_S256x4_S32x4096x128x1_S32x4096x128x4_3_0_n_n_0_3_14_wf

class Facts : Prop extends Facts₀ where

variable [Facts]
-- ==== Proof.Words.lean ====
/-
  The word arithmetic of the decode, on one 32-bit code `c` read as a signed integer.

  The reference indexes the 256-row codebook by `c` the way jnp indexes: a negative `c` has 256 added once, and the
  gather then clamps the start into `[0, 255]`. The kernel clips `c` into `[0, 255]` first, asks whether the clipped code
  is below 128, takes the clipped code (or the clipped code less 128) as a lane of a 128-lane row, and selects between the
  row of the low half of the table and the row of the high half. For `0 ≤ c` both name row `min c 255` of the table:
  `codeRow c`. (For `-256 ≤ c < 0` they differ: the reference wraps to `c + 256`, the kernel clips to `0`.)
-/
import Idealize.ShloMosaic.Lib.ValueIdx

namespace Cert.Decode

open Idealize.ShloMosaic Idealize.ShloMosaic.ValueIdx

/-- The codebook row a non-negative code names: the code, clamped at the last row. -/
def codeRow (c : BitVec 32) : Fin 256 := ⟨min c.toInt.toNat 255, by omega⟩

/-- jnp's reading of a signed word as an index into an axis of 100000 rows, before the gather's clamp: a negative index
    has the extent added once. -/
def wrapTok (x : BitVec 32) : BitVec 32 := Scalar.select (IntOp.cmpi .slt x 0#32) (IntOp.addi x 100000#32) x

/-- The gather's clamp of a signed start index into the 100000 rows of the code table. -/
def clampTok (w : BitVec 32) : Fin 100000 := ⟨min w.toInt.toNat 99999, by omega⟩

/-- The row of the code table a token id names: wrapped once if negative, then clamped into the table. -/
def tokRow (x : BitVec 32) : Fin 100000 := clampTok (wrapTok x)

/-- The kernel's clip of a code into `[0, 255]`. -/
def clip (c : BitVec 32) : BitVec 32 := IntOp.minsi 255#32 (IntOp.maxsi 0#32 c)

/-- Whether a clipped code lies in the low half of the table, as the one-bit word the kernel selects on. -/
def lowBit (v : BitVec 32) : BitVec 1 := IntOp.cmpi .slt v 128#32

/-- The clipped code's position inside its half. -/
def half (v : BitVec 32) : BitVec 32 := Scalar.select (lowBit v) v (IntOp.subi v 128#32)

/-- The lane a position word selects in a 128-lane row: negative positions have 128 added (never taken here), and the
    lane gather reads the word modulo the row's length. -/
def laneOf (p : BitVec 32) : Fin 128 :=
  ⟨(Scalar.select (IntOp.cmpi .slt p 0#32) (IntOp.addi p 128#32) p).toNat % 128, Nat.mod_lt _ (by decide)⟩

/-- A signed comparison `c ≥ 0` that came out true says the word is non-negative as an integer. -/
theorem nonneg_of_sge {c : BitVec 32} (h : IntOp.cmpi .sge c 0#32 = 1#1) : 0 ≤ c.toInt := by
  have h' : BitVec.ofBool ((0#32 : BitVec 32).sle c) = 1#1 := h
  cases hb : (0#32 : BitVec 32).sle c with
  | true => have := BitVec.sle_iff_toInt_le.mp hb; simpa using this
  | false => rw [hb] at h'; exact absurd h' (by decide)

/-- A non-negative word is not below zero in the signed order. -/
theorem slt_zero_of_nonneg {c : BitVec 32} (h : 0 ≤ c.toInt) : c.slt 0#32 = false := by
  rw [BitVec.slt_eq_decide, BitVec.toInt_zero]; exact decide_eq_false (by omega)

/-- On a non-negative code jnp's wrap of a negative index into the 256-row table does nothing. -/
theorem wrap_code_of_nonneg {c : BitVec 32} (h : 0 ≤ c.toInt) :
    Scalar.select (IntOp.cmpi .slt c 0#32) (IntOp.addi c 256#32) c = c := by
  have e : IntOp.cmpi .slt c 0#32 = 0#1 := by
    show BitVec.ofBool (c.slt 0#32) = 0#1
    rw [slt_zero_of_nonneg h]; rfl
  rw [e]; exact select_zero _ _

/-- A non-negative word's integer value is its natural value. -/
theorem toNat_of_nonneg {c : BitVec 32} (h : 0 ≤ c.toInt) : c.toInt.toNat = c.toNat := by
  have hm : c.msb = false := by
    by_contra hne
    have hm' : c.msb = true := by simpa using hne
    have := BitVec.toInt_neg_of_msb_true hm'
    omega
  rw [BitVec.toInt_eq_toNat_of_msb hm]; rfl

/-- The kernel's clip of a non-negative code is the word of the row the code names. -/
theorem clip_of_nonneg {c : BitVec 32} (h : 0 ≤ c.toInt) : clip c = BitVec.ofNat 32 (codeRow c).val := by
  unfold clip IntOp.maxsi IntOp.minsi
  rw [slt_zero_of_nonneg h]
  simp only [Bool.false_eq_true, if_false]
  have h255 : (255#32 : BitVec 32).toInt = 255 := by decide
  by_cases hb : (255#32 : BitVec 32).slt c = true
  · rw [if_pos hb]
    have : (255 : Int) < c.toInt := by have := BitVec.slt_iff_toInt_lt.mp hb; rwa [h255] at this
    have hk : (codeRow c).val = 255 := by show min c.toInt.toNat 255 = 255; omega
    rw [hk]
  · rw [if_neg hb]
    have : ¬ (255 : Int) < c.toInt := fun hlt => hb (BitVec.slt_iff_toInt_lt.mpr (by rwa [h255]))
    have hk : (codeRow c).val = c.toNat := by
      show min c.toInt.toNat 255 = c.toNat
      rw [toNat_of_nonneg h]; have := toNat_of_nonneg h; omega
    rw [hk]
    exact (BitVec.eq_of_toNat_eq (by rw [BitVec.toNat_ofNat]; exact (Nat.mod_eq_of_lt c.isLt))).symm

/-- Every row word of the table is either in the low half, at its own lane, or in the high half, 128 lanes on:
    decided over the 256 rows. -/
theorem lane_split : ∀ k : Fin 256,
    (lowBit (BitVec.ofNat 32 k.val) = 1#1 ∧ (laneOf (half (BitVec.ofNat 32 k.val))).val = k.val) ∨
    (lowBit (BitVec.ofNat 32 k.val) = 0#1 ∧ (laneOf (half (BitVec.ofNat 32 k.val))).val + 128 = k.val) := by
  decide +kernel

/-- THE DECODE OF ONE CODE. A table of 256 entries split into a low row and a high row of 128 lanes; the kernel's
    select between the two rows at the clipped code's lane reads the table at the row a non-negative code names. -/
theorem select_rows {α : Type} (tab : Fin 256 → α) (lo hi : Fin 128 → α)
    (hlo : ∀ l : Fin 128, lo l = tab ⟨l.val, by omega⟩) (hhi : ∀ l : Fin 128, hi l = tab ⟨l.val + 128, by omega⟩)
    {c : BitVec 32} (h : 0 ≤ c.toInt) :
    Scalar.select (lowBit (clip c)) (lo (laneOf (half (clip c)))) (hi (laneOf (half (clip c)))) = tab (codeRow c) := by
  rw [clip_of_nonneg h]
  rcases lane_split (codeRow c) with ⟨h1, h2⟩ | ⟨h1, h2⟩
  · rw [h1, select_one, hlo]; exact congrArg tab (Fin.ext h2)
  · rw [h1, select_zero, hhi]; exact congrArg tab (Fin.ext h2)

end Cert.Decode
-- ==== Proof.PreDecode.lean ====
/-
  What the precondition says of the code table: every code is non-negative.

  The precondition is the conjunction of two `jnp.all`s, "every codebook entry is finite" and "every code is ≥ 0" (a
  signed compare with a splat zero, reduced by `and` over both axes). The second, read at one index of the table, is the
  integer fact the decode needs.
-/
import proofs.«422497_j11536282157503_3_alg».proof.Pre_finite_inputs
import proofs.«422497_j11536282157503_3_alg».proof.Proof.Gen.Pre_finite_inputs
import proofs.«422497_j11536282157503_3_alg».proof.Proof.Words
import Idealize.ShloMosaic.Lib.ReduceAll

noncomputable section

namespace Cert.Pre_finite_inputs.Decode

open Cert.Pre_finite_inputs Idealize.ShloMosaic Idealize.ShloMosaic.ValueIdx

/-- Under the precondition every code of the table is non-negative as a signed integer. -/
theorem codes_nonneg {F : FTy → Type} [FloatOps F] (a0 : IVec S32x4096 32) (a1 : IVec S100000x128 32) (a2 : FVec F S256x4 .f32)
    (h : Cert.Pre_finite_inputs.fn (F := F) a0 a1 a2 = fun _ => 1#1) (k : S100000x128.Idx) : 0 ≤ (a1 k).toInt := by
  have h1 := congrFun h ix0
  dsimp only [Cert.Pre_finite_inputs.fn] at h1
  have h1' : IntOp.andi _ _ = 1#1 := h1
  have h2 := (IntOp.andi_eq_one.mp h1').2
  haveI : Subsingleton S_.Idx := ⟨fun a b => funext fun d => d.elim0⟩
  have h3 := Host.reduce_andi_all _ _ _ _ _ h2 k
  exact Cert.Decode.nonneg_of_sge h3

end Cert.Pre_finite_inputs.Decode

end
-- ==== Proof.Spec.lean ====
/-
  The decode as one function of the three argument arrays.

  `ids` [32, 4096] are token ids, `codes` [100000, 128] gives each token row its 128 block codes, `cb` [256, 4] is the
  codebook. Output entry `(b, s, q)` with `q = 4 j + d` is entry `d` of the codebook row named by block code `j` of the
  token row named by `ids[b, s]`:  `cb[codeRow (codes[tokRow ids[b, s], j]), d]`.
-/
import proofs.«422497_j11536282157503_3_alg».proof.Proof.Words

namespace Cert.Decode

open Idealize.ShloMosaic Idealize.ShloMosaic.ValueIdx

/-- The decoded entry for batch `b`, position `s`, block `j`, column `d`. -/
def decodeAt {α : Type} (ids : IVec ⟨2, ![32, 4096]⟩ 32) (codes : IVec ⟨2, ![100000, 128]⟩ 32)
    (cb : (⟨2, ![256, 4]⟩ : Shape).Idx → α) (b : Fin 32) (s : Fin 4096) (j : Fin 128) (d : Fin 4) : α :=
  cb (ix2 (codeRow (codes (ix2 (tokRow (ids (ix2 b s))) j))) d)

/-- THE RESULT ARRAY [32, 4096, 512]: the last axis is block-major, four columns to a block. -/
def G {α : Type} (ids : IVec ⟨2, ![32, 4096]⟩ 32) (codes : IVec ⟨2, ![100000, 128]⟩ 32)
    (cb : (⟨2, ![256, 4]⟩ : Shape).Idx → α) : (⟨3, ![32, 4096, 512]⟩ : Shape).Idx → α := fun i =>
  decodeAt ids codes cb ⟨(i 0).val, (i 0).isLt⟩ ⟨(i 1).val, (i 1).isLt⟩
    ⟨(i 2).val / 4, by have h : (i 2).val < 512 := (i 2).isLt; omega⟩ ⟨(i 2).val % 4, Nat.mod_lt _ (by decide)⟩

end Cert.Decode
-- ==== Proof.RefValue.lean ====
/-
  The reference's result, index by index, is the decode `G` of its arguments, wherever every code is non-negative.

  The reference gathers token rows of the code table (`codes[ids]`, jnp's indexing: a negative id wraps once, then the
  gather clamps), then gathers codebook rows by those codes the same way, and reshapes [.., 128, 4] to [.., 512]. On a
  non-negative code the wrap does nothing, and the clamp is `codeRow`.
-/
import proofs.«422497_j11536282157503_3_alg».proof.Proof.Gen.ReferenceIdeal.Read
import proofs.«422497_j11536282157503_3_alg».proof.Proof.Spec

noncomputable section

namespace Cert.ReferenceIdeal.RefValue

open Cert.ReferenceIdeal Cert.ReferenceIdeal.Gen Cert.ReferenceIdeal.Read Cert.Decode
open Idealize.ShloMosaic Idealize.ShloMosaic.ValueIdx

variable {F : FTy → Type} [FloatOps F]

/-- The gather of token rows at `(b, s, j)`: the code table at the row the start index `[b, s, 0]` names, read signed and
    clamped into the table, and column `j`. -/
theorem gather_rows (x1 : IVec S100000x128 32) (idx : IVec S32x4096x1 32) (y : S32x4096x128.Idx) :
    Host.gather gather_S100000x128_S32x4096x1_S32x4096x128_2_0_n_n_0_2_1128 x1 idx y
      = x1 (ix2 (clampTok (idx (ix3 (⟨(y 0).val, (y 0).isLt⟩ : Fin 32) (⟨(y 1).val, (y 1).isLt⟩ : Fin 4096) (0 : Fin 1))))
          (⟨(y 2).val, (y 2).isLt⟩ : Fin 128)) := by
  unfold Host.gather
  refine congrArg x1 (funext fun a => Fin.ext ?_)
  match a with
  | ⟨0, _⟩ =>
    show gather_S100000x128_S32x4096x1_S32x4096x128_2_0_n_n_0_2_1128.start y idx 0
        + gather_S100000x128_S32x4096x1_S32x4096x128_2_0_n_n_0_2_1128.batchCoord y 0
        + gather_S100000x128_S32x4096x1_S32x4096x128_2_0_n_n_0_2_1128.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S32x4096x1_S32x4096x128_2_0_n_n_0_2_1128.startIndexMap from List.mem_singleton.mpr rfl)]
    have hsi : gather_S100000x128_S32x4096x1_S32x4096x128_2_0_n_n_0_2_1128.siIdx y ⟨List.idxOf (0 : Fin 2) gather_S100000x128_S32x4096x1_S32x4096x128_2_0_n_n_0_2_1128.startIndexMap,
        List.idxOf_lt_length_iff.2 (List.mem_singleton.mpr rfl)⟩
        = ix3 (⟨(y 0).val, (y 0).isLt⟩ : Fin 32) (⟨(y 1).val, (y 1).isLt⟩ : Fin 4096) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x128_S32x4096x1_S32x4096x128_2_0_n_n_0_2_1128.start y idx 1
        + gather_S100000x128_S32x4096x1_S32x4096x128_2_0_n_n_0_2_1128.batchCoord y 1
        + gather_S100000x128_S32x4096x1_S32x4096x128_2_0_n_n_0_2_1128.offCoord y 1 = (y 2).val
    rw [GatherDims.batchCoord_eq_zero _ _ _ List.not_mem_nil]
    unfold GatherDims.start GatherDims.offCoord
    rw [dif_neg (show (1 : Fin 2) ∉ gather_S100000x128_S32x4096x1_S32x4096x128_2_0_n_n_0_2_1128.startIndexMap from by decide),
      dif_pos (show (1 : Fin 2) ∈ gather_S100000x128_S32x4096x1_S32x4096x128_2_0_n_n_0_2_1128.sKept from by decide)]
    simp only [Nat.zero_add, Nat.add_zero]
    rfl

/-- The gather of codebook rows at `(b, s, j, d)`: the codebook at the row the start index `[b, s, j, 0]` names, read signed
    and clamped into the 256 rows (`codeRow`), and column `d`. -/
theorem gather_cb (x2 : FVec F S256x4 .f32) (idx : IVec S32x4096x128x1 32) (y : S32x4096x128x4.Idx) :
    Host.gather gather_S256x4_S32x4096x128x1_S32x4096x128x4_3_0_n_n_0_3_14 x2 idx y
      = x2 (ix2 (codeRow (idx (ix4 (⟨(y 0).val, (y 0).isLt⟩ : Fin 32) (⟨(y 1).val, (y 1).isLt⟩ : Fin 4096)
          (⟨(y 2).val, (y 2).isLt⟩ : Fin 128) (0 : Fin 1)))) (⟨(y 3).val, (y 3).isLt⟩ : Fin 4)) := by
  unfold Host.gather
  refine congrArg x2 (funext fun a => Fin.ext ?_)
  match a with
  | ⟨0, _⟩ =>
    show gather_S256x4_S32x4096x128x1_S32x4096x128x4_3_0_n_n_0_3_14.start y idx 0 + gather_S256x4_S32x4096x128x1_S32x4096x128x4_3_0_n_n_0_3_14.batchCoord y 0 + gather_S256x4_S32x4096x128x1_S32x4096x128x4_3_0_n_n_0_3_14.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x4_S32x4096x128x1_S32x4096x128x4_3_0_n_n_0_3_14.startIndexMap from List.mem_singleton.mpr rfl)]
    have hsi : gather_S256x4_S32x4096x128x1_S32x4096x128x4_3_0_n_n_0_3_14.siIdx y ⟨List.idxOf (0 : Fin 2) gather_S256x4_S32x4096x128x1_S32x4096x128x4_3_0_n_n_0_3_14.startIndexMap,
        List.idxOf_lt_length_iff.2 (List.mem_singleton.mpr rfl)⟩
        = ix4 (⟨(y 0).val, (y 0).isLt⟩ : Fin 32) (⟨(y 1).val, (y 1).isLt⟩ : Fin 4096) (⟨(y 2).val, (y 2).isLt⟩ : Fin 128) (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S256x4_S32x4096x128x1_S32x4096x128x4_3_0_n_n_0_3_14.start y idx 1 + gather_S256x4_S32x4096x128x1_S32x4096x128x4_3_0_n_n_0_3_14.batchCoord y 1 + gather_S256x4_S32x4096x128x1_S32x4096x128x4_3_0_n_n_0_3_14.offCoord y 1 = (y 3).val
    rw [GatherDims.batchCoord_eq_zero _ _ _ List.not_mem_nil]
    unfold GatherDims.start GatherDims.offCoord
    rw [dif_neg (show (1 : Fin 2) ∉ gather_S256x4_S32x4096x128x1_S32x4096x128x4_3_0_n_n_0_3_14.startIndexMap from by decide),
      dif_pos (show (1 : Fin 2) ∈ gather_S256x4_S32x4096x128x1_S32x4096x128x4_3_0_n_n_0_3_14.sKept from by decide)]
    simp only [Nat.zero_add, Nat.add_zero]
    rfl

/-- The reshape's source index: the last axis of the result is block-major, four columns to a block. -/
theorem src_coords (i : S32x4096x512.Idx) :
    (idx_main_v14 i 0).val = (i 0).val ∧ (idx_main_v14 i 1).val = (i 1).val
      ∧ (idx_main_v14 i 2).val = (i 2).val / 4 ∧ (idx_main_v14 i 3).val = (i 2).val % 4 := by
  have h0 : (i 0).val < 32 := (i 0).isLt
  have h1 : (i 1).val < 4096 := (i 1).isLt
  have h2 : (i 2).val < 512 := (i 2).isLt
  refine ⟨?_, ?_, ?_, ?_⟩
  · show (((i 0).val * 4096 + (i 1).val) * 512 + (i 2).val) / 2097152 = (i 0).val; omega
  · show (((i 0).val * 4096 + (i 1).val) * 512 + (i 2).val) / 512 % 4096 = (i 1).val; omega
  · show (((i 0).val * 4096 + (i 1).val) * 512 + (i 2).val) / 4 % 128 = (i 2).val / 4; omega
  · show (((i 0).val * 4096 + (i 1).val) * 512 + (i 2).val) % 4 = (i 2).val % 4; omega

/-- THE REFERENCE IS THE DECODE, where every code of the table is non-negative. -/
theorem ref_eq (x0 : IVec S32x4096 32) (x1 : IVec S100000x128 32) (x2 : FVec F S256x4 .f32)
    (hc : ∀ k, 0 ≤ (x1 k).toInt) : val_main_v14 (F := F) x0 x1 x2 = G x0 x1 x2 := by
  funext i
  obtain ⟨h0, h1, h2, h3⟩ := src_coords i
  have hz : idx_main_v14 i = ix4 (⟨(i 0).val, (i 0).isLt⟩ : Fin 32) (⟨(i 1).val, (i 1).isLt⟩ : Fin 4096)
      (⟨(i 2).val / 4, by have h : (i 2).val < 512 := (i 2).isLt; omega⟩ : Fin 128) (⟨(i 2).val % 4, Nat.mod_lt _ (by decide)⟩ : Fin 4) := by
    funext a; refine Fin.ext ?_
    match a with
    | ⟨0, _⟩ => exact h0
    | ⟨1, _⟩ => exact h1
    | ⟨2, _⟩ => exact h2
    | ⟨3, _⟩ => exact h3
  rw [val_main_v14_apply, hz]
  unfold val_main_v13
  rw [gather_cb, val_main_v12_apply, val_main_v11_apply, val_main_v8_apply, val_main_v10_apply, val_main_v7_apply,
    val_main_v9_apply, val_main_c_1_apply, val_main_c_2_apply]
  unfold val_main_v6
  rw [gather_rows, val_main_v5_apply, val_main_v4_apply, val_main_v1_apply, val_main_v3_apply, val_main_v0_apply,
    val_main_v2_apply, val_main_c_apply, val_main_c_0_apply]
  rw [wrap_code_of_nonneg (hc _)]
  have hK : ∀ (b : Fin 32) (s : Fin 4096), idx_main_v5 (ix3 b s (0 : Fin 1)) = ix2 b s := fun b s =>
    funext fun a => match a with
      | ⟨0, _⟩ => rfl
      | ⟨1, _⟩ => rfl
  rw [hK]
  rfl

end Cert.ReferenceIdeal.RefValue

end
-- ==== Proof.Piece.lean ====
/-
  One stored piece of the decode, read at an index.

  For one codebook column the kernel holds two rows of 128 lanes (the column's entries for codes 0..127 and for codes
  128..255), spreads each down the 2048 rows of the block, gathers along the lanes by the block's position words, and
  keeps, entry by entry, the low gather where the low-half bit is set and the high gather elsewhere. Read at row `r` and
  lane `j` that is: the low row or the high row, at the lane the position word at `(r, j)` names.
-/
import Idealize.ShloMosaic.Lib.ValueIdx
import Idealize.ShloMosaic.Lib.Pipeline.Value
import proofs.«422497_j11536282157503_3_alg».proof.Proof.Words

noncomputable section

namespace Cert.Decode

open Idealize.ShloMosaic Idealize.ShloMosaic.ValueIdx

/-- A block of codes, or of one decoded column: 2048 rows of 128 lanes. -/
abbrev Blk : Shape := ⟨2, ![2048, 128]⟩
/-- The same block with a unit axis behind the lanes. -/
abbrev BlkU : Shape := ⟨3, ![2048, 128, 1]⟩
/-- One column's slab of the output block: 2048 rows, one column, 128 lanes. -/
abbrev Slab : Shape := ⟨3, ![2048, 1, 128]⟩
/-- One row of a half table: 128 lanes. -/
abbrev Row : Shape := ⟨2, ![1, 128]⟩

/-- A row spread down the block and gathered along the lanes by position words reads, at `(r, j)`, the row at the lane
    the position word at `(r, j)` names. -/
theorem gather_row {α : Type} (row : Row.Idx → α) (pos : IVec Blk 32) (hc : Row.ShapeCasts Row) (hb : Row.Broadcasts Blk)
    (ha : Blk.ShapeCasts BlkU) (hd : BlkU.ShapeCasts Blk) (r : Fin 2048) (j : Fin 128) :
    dynamicGather (s := Blk) 1 (broadcastTo Blk (shapeCast Row (shapeCast Row row hc) hc) hb)
        (shapeCast Blk (shapeCast BlkU (select (cmpi .slt pos (broadcast Blk 0#32)) (addi pos (broadcast Blk 128#32)) pos) ha) hd)
        (ix2 r j)
      = row (ix2 0 (laneOf (pos (ix2 r j)))) := by
  rw [shapeCast_shapeCast, shapeCast_shapeCast]
  unfold dynamicGather
  refine broadcastTo_apply row hb _ (ix2 0 (laneOf (pos (ix2 r j)))) fun a => ?_
  match a with
  | ⟨0, _⟩ => show (0 : Nat) = if (1 : Nat) = 1 then 0 else _; rw [if_pos rfl]
  | ⟨1, _⟩ =>
    show (laneOf (pos (ix2 r j))).val = if (128 : Nat) = 1 then 0 else _
    rw [if_neg (by decide)]
    rfl

/-- THE PIECE AT AN INDEX: the slab the kernel stores for one column reads, at row `r` and lane `j`, the low row or the
    high row (by the low-half bit there) at the lane the position word there names. -/
theorem piece_apply {α : Type} (low : IVec Blk 1) (pos : IVec Blk 32) (lrow hrow : Row.Idx → α)
    (hc : Row.ShapeCasts Row) (hb : Row.Broadcasts Blk) (ha : Blk.ShapeCasts BlkU) (hd : BlkU.ShapeCasts Blk)
    (hs : Blk.ShapeCasts Slab) (r : Fin 2048) (j : Fin 128) :
    shapeCast Slab (select low
        (dynamicGather (s := Blk) 1 (broadcastTo Blk (shapeCast Row (shapeCast Row lrow hc) hc) hb)
          (shapeCast Blk (shapeCast BlkU (select (cmpi .slt pos (broadcast Blk 0#32)) (addi pos (broadcast Blk 128#32)) pos) ha) hd))
        (dynamicGather (s := Blk) 1 (broadcastTo Blk (shapeCast Row (shapeCast Row hrow hc) hc) hb)
          (shapeCast Blk (shapeCast BlkU (select (cmpi .slt pos (broadcast Blk 0#32)) (addi pos (broadcast Blk 128#32)) pos) ha) hd))) hs
        (ix3 r (0 : Fin 1) j)
      = Scalar.select (low (ix2 r j)) (lrow (ix2 0 (laneOf (pos (ix2 r j))))) (hrow (ix2 0 (laneOf (pos (ix2 r j))))) := by
  refine (shapeCast_apply _ hs (ix3 r (0 : Fin 1) j) (ix2 r j) ?_).trans ?_
  · rw [Shape.rowMajor_val_two, Shape.rowMajor_val_three]
    show r.val * 128 + j.val = (r.val * 1 + 0) * 128 + j.val
    omega
  · rw [select_apply, gather_row, gather_row]

end Cert.Decode

end
-- ==== Proof.Block.lean ====
/-
  What the kernel body leaves in the output block at one grid point.

  The body reads a block of 2048 x 128 codes and the two half tables (4 columns x 128 lanes each: codebook rows 0..127 and
  rows 128..255, transposed), and stores four slabs, one per codebook column `d`, into the [2048, 4, 128] output block.
  Entry `(r, d, j)` of the block is therefore decided by the one code at `(r, j)`: its clip into [0, 255], whether the
  clipped code is below 128, and the clipped code's lane inside its half select an entry of column `d` of the low or of
  the high table. `blockG` is that function; `out_eq` says the four stores, which tile the block, leave exactly it.
-/
import proofs.«422497_j11536282157503_3_alg».proof.Proof.Gen.KernelIdeal.Frame
import proofs.«422497_j11536282157503_3_alg».proof.Proof.Piece

set_option maxRecDepth 16384

noncomputable section

namespace Cert.KernelIdeal.Block

open Cert.KernelIdeal Cert.KernelIdeal.Gen Cert.Decode
open Idealize.ShloMosaic Idealize.ShloMosaic.ValueIdx

variable {F : FTy → Type} [FloatOps F]

/-- The clipped code at a position of the block. -/
theorem pay1_eq (x0 : Vec F S2048x128 .i32) : k0_pay1 x0 = fun i => clip (x0 i) := by
  unfold k0_pay1
  rw [shapeCast_self]
  rfl

/-- The low-half bit at a position of the block. -/
theorem pay2_eq (x0 : Vec F S2048x128 .i32) : k0_pay2 x0 = fun i => lowBit (clip (x0 i)) := by
  unfold k0_pay2
  rw [pay1_eq]
  rfl

/-- The position of the clipped code inside its half. -/
theorem pay3_eq (x0 : Vec F S2048x128 .i32) : k0_pay3 x0 = fun i => half (clip (x0 i)) := by
  unfold k0_pay3
  rw [pay2_eq, pay1_eq]
  rfl

/-- Column 0's slab at `(r, j)`. -/
theorem pay4_apply (x0 : Vec F S2048x128 .i32) (l h : Vec F S1x128 .f32) (r : Fin 2048) (j : Fin 128) :
    k0_pay4 x0 l h (ix3 r (0 : Fin 1) j)
      = Scalar.select (lowBit (clip (x0 (ix2 r j)))) (l (ix2 0 (laneOf (half (clip (x0 (ix2 r j)))))))
          (h (ix2 0 (laneOf (half (clip (x0 (ix2 r j))))))) := by
  unfold k0_pay4
  refine (piece_apply (k0_pay2 x0) (k0_pay3 x0) l h _ _ _ _ _ r j).trans ?_
  rw [pay2_eq, pay3_eq]

/-- Column 1's slab at `(r, j)`, from the low-half bits and the positions. -/
theorem pay5_apply (low : IVec S2048x128 1) (pos : IVec S2048x128 32) (l h : Vec F S1x128 .f32) (r : Fin 2048) (j : Fin 128) :
    k0_pay5 low pos l h (ix3 r (0 : Fin 1) j)
      = Scalar.select (low (ix2 r j)) (l (ix2 0 (laneOf (pos (ix2 r j))))) (h (ix2 0 (laneOf (pos (ix2 r j))))) := by
  unfold k0_pay5
  exact piece_apply low pos l h _ _ _ _ _ r j

/-- Column 2's slab at `(r, j)`: its low gather and its spread high row were made one step earlier. -/
theorem pay8_apply (low : IVec S2048x128 1) (pos : IVec S2048x128 32) (l h : Vec F S1x128 .f32) (r : Fin 2048) (j : Fin 128) :
    k0_pay8 low pos (k0_pay6 h) (k0_pay7 pos l) (ix3 r (0 : Fin 1) j)
      = Scalar.select (low (ix2 r j)) (l (ix2 0 (laneOf (pos (ix2 r j))))) (h (ix2 0 (laneOf (pos (ix2 r j))))) := by
  unfold k0_pay8 k0_pay7 k0_pay6
  exact piece_apply low pos l h _ _ _ _ _ r j

/-- Column 3's slab at `(r, j)`. -/
theorem pay9_apply (low : IVec S2048x128 1) (pos : IVec S2048x128 32) (l h : Vec F S1x128 .f32) (r : Fin 2048) (j : Fin 128) :
    k0_pay9 low pos l h (ix3 r (0 : Fin 1) j)
      = Scalar.select (low (ix2 r j)) (l (ix2 0 (laneOf (pos (ix2 r j))))) (h (ix2 0 (laneOf (pos (ix2 r j))))) := by
  unfold k0_pay9
  exact piece_apply low pos l h _ _ _ _ _ r j

/-- The block's entry at row `r`, column `d`, lane `j`: column `d` of the low or of the high table, at the lane of the
    clipped code at `(r, j)` inside its half. -/
def blockAt (x0 : Vec F S2048x128 .i32) (x1 x2 : Vec F S4x128 .f32) (r : Fin 2048) (d : Fin 4) (j : Fin 128) : Elt F .f32 :=
  Scalar.select (lowBit (clip (x0 (ix2 r j)))) (x1 (ix2 d (laneOf (half (clip (x0 (ix2 r j)))))))
    (x2 (ix2 d (laneOf (half (clip (x0 (ix2 r j)))))))

/-- THE BLOCK: entry `(r, d, j)` from the code at `(r, j)` and column `d` of the two half tables. -/
def blockG (x0 : Vec F S2048x128 .i32) (x1 x2 : Vec F S4x128 .f32) : Vec F S2048x4x128 .f32 := fun y =>
  blockAt x0 x1 x2 ⟨(y 0).val, (y 0).isLt⟩ ⟨(y 1).val, (y 1).isLt⟩ ⟨(y 2).val, (y 2).isLt⟩

theorem hz2 : (![0, 0] : Fin 2 → Nat) = fun _ => 0 := funext fun a => by fin_cases a <;> rfl

/-- Row `o` of a half table, loaded as a [1, 128] row, reads the table at `(o, l)`. -/
theorem ld_row (x : Vec F S4x128 .f32) (o : Nat) (ho : o < 4) (inb : ∀ a, (![o, 0] : Fin 2 → Nat) a + S1x128.size a ≤ S4x128.size a)
    (l : Fin 128) :
    View.ld x (Rect.unit (s := S4x128) ![o, 0] S1x128.size inb) (ix2 (0 : Fin 1) l) = x (ix2 (⟨o, ho⟩ : Fin 4) l) := by
  show x _ = x _
  refine congrArg x (funext fun a => Fin.ext ?_)
  match a with
  | ⟨0, _⟩ => show o + 1 * 0 = o; omega
  | ⟨1, _⟩ => show 0 + 1 * l.val = l.val; omega

/-- The slab stored at column `o` sits at `(r, o, j)` of the block. -/
theorem blockG_emb (x0 : Vec F S2048x128 .i32) (x1 x2 : Vec F S4x128 .f32) (o : Nat) (ho : o < 4)
    (inb : ∀ a, (![0, o, 0] : Fin 3 → Nat) a + S2048x1x128.size a ≤ S2048x4x128.size a) (r : Fin 2048) (j : Fin 128) :
    blockG x0 x1 x2 ((Rect.unit (s := S2048x4x128) ![0, o, 0] S2048x1x128.size inb).emb (ix3 r (0 : Fin 1) j))
      = blockAt x0 x1 x2 r ⟨o, ho⟩ j := by
  generalize hy : (Rect.unit (s := S2048x4x128) ![0, o, 0] S2048x1x128.size inb).emb (ix3 r (0 : Fin 1) j) = y
  have e0 : (y 0).val = r.val := by rw [← hy]; show 0 + 1 * r.val = r.val; omega
  have e1 : (y 1).val = o := by rw [← hy]; show o + 1 * 0 = o; omega
  have e2 : (y 2).val = j.val := by rw [← hy]; show 0 + 1 * j.val = j.val; omega
  have f0 : (⟨(y 0).val, (y 0).isLt⟩ : Fin 2048) = r := Fin.ext e0
  have f1 : (⟨(y 1).val, (y 1).isLt⟩ : Fin 4) = ⟨o, ho⟩ := Fin.ext e1
  have f2 : (⟨(y 2).val, (y 2).isLt⟩ : Fin 128) = j := Fin.ext e2
  unfold blockG
  rw [f0, f1, f2]

/-- The four stores leave `blockG`: each slab is `blockG` on the column it is stored at, and the slabs tile the block. -/
theorem out_eq (x0 : Vec F S2048x128 .i32) (x1 x2 : Vec F S4x128 .f32) : out0_3 x0 x1 x2 = blockG x0 x1 x2 := by
  funext y
  unfold out0_3
  refine View.canon_apply_of_pieces (blockG x0 x1 x2) _ ?_ y (cover0_3 _ _ _ _ y)
  intro p hp x
  simp only [List.mem_cons, List.mem_nil_iff, or_false] at hp
  rcases hp with rfl | rfl | rfl | rfl
  all_goals
    obtain ⟨r, z, j, rfl⟩ : ∃ (r : Fin 2048) (z : Fin 1) (j : Fin 128), x = ix3 r z j := ⟨x 0, x 1, x 2, eq_ix3 x⟩
    obtain rfl : z = 0 := Subsingleton.elim _ _
    simp only [View.ld_unit_zero (S := S2048x128) hz2]
  · rw [pay9_apply, pay2_eq, pay3_eq, blockG_emb x0 x1 x2 3 (by decide), ld_row x1 3 (by decide), ld_row x2 3 (by decide)]; rfl
  · rw [pay8_apply, pay2_eq, pay3_eq, blockG_emb x0 x1 x2 2 (by decide), ld_row x1 2 (by decide), ld_row x2 2 (by decide)]; rfl
  · rw [pay5_apply, pay2_eq, pay3_eq, blockG_emb x0 x1 x2 1 (by decide), ld_row x1 1 (by decide), ld_row x2 1 (by decide)]; rfl
  · rw [pay4_apply, blockG_emb x0 x1 x2 0 (by decide), ld_row x1 0 (by decide), ld_row x2 0 (by decide)]; rfl

end Cert.KernelIdeal.Block

end
-- ==== Proof.ArrayValue.lean ====
/-
  From the blocks to the whole output array of the call.

  Grid point `t` (of 64) reads rows `2048 t .. 2048 t + 2047` of the row codes and both half tables whole, and writes back
  rows `2048 t ..` of the [131072, 4, 128] output. So the output array is one function of the row codes and the two
  tables: entry `(R, d, j)` is column `d` of the low or of the high table, at the lane of the clipped code `(R, j)`.
-/
import proofs.«422497_j11536282157503_3_alg».proof.Proof.Block
import Idealize.ShloMosaic.Lib.Pipeline.Value

set_option maxRecDepth 16384

noncomputable section

namespace Cert.KernelIdeal.ArrayValue

open Cert.KernelIdeal Cert.KernelIdeal.Gen Cert.KernelIdeal.Block Cert.Decode
open Idealize.ShloMosaic Idealize.ShloMosaic.TcCoe Idealize.SL.Sem Idealize.ShloMosaic.ValueIdx
open Idealize.ShloMosaic.Pipeline (Dat)

variable {F : FTy → Type} [FloatOps F]

/-- The output array's entry at row `R`, column `d`, lane `j`, from the row codes and the two half tables. -/
def arrAt (rc : IVec S131072x128 32) (lo hi : FVec F S4x128 .f32) (R : Fin 131072) (d : Fin 4) (j : Fin 128) : Elt F .f32 :=
  Scalar.select (lowBit (clip (rc (ix2 R j)))) (lo (ix2 d (laneOf (half (clip (rc (ix2 R j)))))))
    (hi (ix2 d (laneOf (half (clip (rc (ix2 R j)))))))

/-- THE OUTPUT ARRAY of the call as one function of the arrays the region finds. -/
def arrG (rc : IVec S131072x128 32) (lo hi : FVec F S4x128 .f32) : S131072x4x128.Idx → Elt F .f32 := fun y =>
  arrAt rc lo hi ⟨(y 0).val, (y 0).isLt⟩ ⟨(y 1).val, (y 1).isLt⟩ ⟨(y 2).val, (y 2).isLt⟩

/-- Where the windows sit at point `t`: the codes and the output move one block of rows per point, the tables stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 64 := lt_of_lt_of_eq t.isLt N_0

/-- The array row of block row `r` at point `t`. -/
def rowOf (t : Fin cfg0.N) (r : Fin 2048) : Fin 131072 := ⟨t.val * 2048 + r.val, by have := t_lt t; omega⟩

/-- The codes' block at point `t` is rows `2048 t ..` of the array it is cut from. -/
theorem codes_blk (A0 : S131072x128.Idx → BitVec 32) (t : Fin cfg0.N) (r : Fin 2048) (j : Fin 128) :
    ((cfg0.win 0).blk t).view.read (Elt F) A0 (ix2 r j) = A0 (ix2 (rowOf t r) j) := by
  obtain ⟨e0, e1, -⟩ := idx_facts t
  show A0 (((cfg0.win 0).blk t).view.emb (ix2 r j)) = A0 (ix2 (rowOf t r) j)
  refine congrArg A0 (funext fun a => Fin.ext ?_)
  match a with
  | ⟨0, _⟩ => show win0_0.index t (0 : Fin 2) * 2048 + 1 * r.val = t.val * 2048 + r.val; omega
  | ⟨1, _⟩ => show win0_0.index t (1 : Fin 2) * 128 + 1 * j.val = j.val; omega

/-- The low table's block at every point is the whole table. -/
theorem lo_blk (A1 : S4x128.Idx → Elt F .f32) (t : Fin cfg0.N) (d : Fin 4) (l : Fin 128) :
    ((cfg0.win 1).blk t).view.read (Elt F) A1 (ix2 d l) = A1 (ix2 d l) := by
  obtain ⟨-, -, e2, e3, -⟩ := idx_facts t
  show A1 (((cfg0.win 1).blk t).view.emb (ix2 d l)) = A1 (ix2 d l)
  refine congrArg A1 (funext fun a => Fin.ext ?_)
  match a with
  | ⟨0, _⟩ => show win0_1.index t (0 : Fin 2) * 4 + 1 * d.val = d.val; omega
  | ⟨1, _⟩ => show win0_1.index t (1 : Fin 2) * 128 + 1 * l.val = l.val; omega

/-- The high table's block at every point is the whole table. -/
theorem hi_blk (A2 : S4x128.Idx → Elt F .f32) (t : Fin cfg0.N) (d : Fin 4) (l : Fin 128) :
    ((cfg0.win 2).blk t).view.read (Elt F) A2 (ix2 d l) = A2 (ix2 d l) := by
  obtain ⟨-, -, -, -, e4, e5, -⟩ := idx_facts t
  show A2 (((cfg0.win 2).blk t).view.emb (ix2 d l)) = A2 (ix2 d l)
  refine congrArg A2 (funext fun a => Fin.ext ?_)
  match a with
  | ⟨0, _⟩ => show win0_2.index t (0 : Fin 2) * 4 + 1 * d.val = d.val; omega
  | ⟨1, _⟩ => show win0_2.index t (1 : Fin 2) * 128 + 1 * l.val = l.val; omega

/-- THE BLOCK IS A BLOCK OF THE ARRAY, for ANY three arrays the windows are cut from: the block function of the three
    input blocks at point `t`, read at `y`, is the array function of the three arrays at `y`'s place in the output. -/
theorem block_of_arrays (A0 : S131072x128.Idx → BitVec 32) (A1 A2 : S4x128.Idx → Elt F .f32) (t : Fin cfg0.N)
    (y : ((cfg0.win 3).xblock (grid0.coords t)).Idx) :
    (cfg0.win 3).cut (grid0.coords t)
        (blockG (((cfg0.win 0).blk t).view.read (Elt F) A0) (((cfg0.win 1).blk t).view.read (Elt F) A1)
          (((cfg0.win 2).blk t).view.read (Elt F) A2)) y
      = ((cfg0.win 3).blk t).view.read (Elt F) (arrG A0 A1 A2) y := by
  obtain ⟨-, -, -, -, -, -, e6, e7, e8⟩ := idx_facts t
  show blockG (((cfg0.win 0).blk t).view.read (Elt F) A0) (((cfg0.win 1).blk t).view.read (Elt F) A1)
      (((cfg0.win 2).blk t).view.read (Elt F) A2) y
    = arrG A0 A1 A2 (((cfg0.win 3).blk t).view.emb y)
  generalize hE : ((cfg0.win 3).blk t).view.emb y = E
  have g0 : (E 0).val = t.val * 2048 + (y 0).val := by
    rw [← hE]; show win0_3.index t (0 : Fin 3) * 2048 + 1 * (y 0).val = _; omega
  have g1 : (E 1).val = (y 1).val := by
    rw [← hE]; show win0_3.index t (1 : Fin 3) * 4 + 1 * (y 1).val = _; omega
  have g2 : (E 2).val = (y 2).val := by
    rw [← hE]; show win0_3.index t (2 : Fin 3) * 128 + 1 * (y 2).val = _; omega
  have f0 : (⟨(E 0).val, (E 0).isLt⟩ : Fin 131072) = rowOf t ⟨(y 0).val, (y 0).isLt⟩ := Fin.ext g0
  have f1 : (⟨(E 1).val, (E 1).isLt⟩ : Fin 4) = ⟨(y 1).val, (y 1).isLt⟩ := Fin.ext g1
  have f2 : (⟨(E 2).val, (E 2).isLt⟩ : Fin 128) = ⟨(y 2).val, (y 2).isLt⟩ := Fin.ext g2
  unfold blockG arrG
  rw [f0, f1, f2]
  unfold blockAt arrAt
  rw [codes_blk, lo_blk, hi_blk]

variable (m : (ℓ : Loc nD τ sig) → Buf (Elt F) ℓ)

/-- WHAT POINT `t` WRITES BACK is block `t` of `arrG` of the arrays the region finds. -/
theorem flushed_eq (c : Dev nD) (t : Fin cfg0.N) :
    (dats m 0 c).flushed 3 t
      = ((cfg0.win 3).blk t).view.read (Elt F) (arrG (V m c main_v7) (V m c main_v9) (V m c main_v10)) := by
  show (cfg0.win 3).cut (grid0.coords t) ((dats m 0 c).after 3 t) = _
  rw [after0_3, out_eq]
  funext y
  exact block_of_arrays (V m c main_v7) (V m c main_v9) (V m c main_v10) t y

/-- An index of the output array is in point `t`'s block iff each coordinate is in the block's range on its axis. -/
theorem mem_blk (t : Fin cfg0.N) (i : S131072x4x128.Idx) :
    i ∈ ((cfg0.win 3).blk t).view.set ↔ ∀ a : Fin 3, win0_3.index t a * S2048x4x128.size a ≤ (i a).val
      ∧ (i a).val < win0_3.index t a * S2048x4x128.size a + S2048x4x128.size a := by
  show i ∈ ((View.whole main_v11).slice (win0_3.rect t)).set ↔ _
  rw [View.set_slice_whole, Rect.mem_set_unit]
  exact Iff.rfl

/-- Every index of the output array lies in the block of the point its row belongs to. -/
theorem cover (i : S131072x4x128.Idx) :
    ∃ t : Fin cfg0.N, (cfg0.win 3).flush t = true ∧ i ∈ ((cfg0.win 3).blk t).view.set := by
  have hi0 : (i 0).val < 131072 := (i 0).isLt
  have hi1 : (i 1).val < 4 := (i 1).isLt
  have hi2 : (i 2).val < 128 := (i 2).isLt
  have hN : (i 0).val / 2048 < cfg0.N := by rw [show cfg0.N = 64 from N_0]; omega
  refine ⟨⟨(i 0).val / 2048, hN⟩, flush0_3 _, ?_⟩
  rw [mem_blk]
  obtain ⟨-, -, -, -, -, -, e6, e7, e8⟩ := idx_facts ⟨(i 0).val / 2048, hN⟩
  have e6' : win0_3.index ⟨(i 0).val / 2048, hN⟩ (0 : Fin 3) = (i 0).val / 2048 := e6
  intro a
  match a with
  | ⟨0, _⟩ =>
    show win0_3.index ⟨(i 0).val / 2048, hN⟩ (0 : Fin 3) * 2048 ≤ (i 0).val
      ∧ (i 0).val < win0_3.index ⟨(i 0).val / 2048, hN⟩ (0 : Fin 3) * 2048 + 2048
    omega
  | ⟨1, _⟩ =>
    show win0_3.index ⟨(i 0).val / 2048, hN⟩ (1 : Fin 3) * 4 ≤ (i 1).val
      ∧ (i 1).val < win0_3.index ⟨(i 0).val / 2048, hN⟩ (1 : Fin 3) * 4 + 4
    omega
  | ⟨2, _⟩ =>
    show win0_3.index ⟨(i 0).val / 2048, hN⟩ (2 : Fin 3) * 128 ≤ (i 2).val
      ∧ (i 2).val < win0_3.index ⟨(i 0).val / 2048, hN⟩ (2 : Fin 3) * 128 + 128
    omega

/-- THE OUTPUT ARRAY AFTER THE RUN is `arrG` of the arrays the region finds. -/
theorem final (c : Dev nD) :
    (dats m 0 c).arrAt 3 cfg0.N = arrG (V m c main_v7) (V m c main_v9) (V m c main_v10) :=
  (dats m 0 c).arrAt_eq_of_cover 3 (arrG (V m c main_v7) (V m c main_v9) (V m c main_v10))
    (fun t _ => flushed_eq m c t) cover

end Cert.KernelIdeal.ArrayValue

end
-- ==== Proof.KernelHost.lean ====
/-
  The three arrays the kernel's region finds, read at an index.

  Before the call, the program flattens the token ids to one axis of 131072, gathers their rows of the code table (jnp's
  indexing again: wrap a negative id once, then the gather clamps) into `row codes` [131072, 128], and cuts the transposed
  codebook [4, 256] into its low half (codes 0..127) and its high half (codes 128..255), each [4, 128].
-/
import proofs.«422497_j11536282157503_3_alg».proof.Proof.Gen.KernelIdeal.Frame
import proofs.«422497_j11536282157503_3_alg».proof.Proof.Spec
import Idealize.ShloMosaic.Lib.StableHlo.Run
import Idealize.ShloMosaic.Lib.Pipeline.Value

noncomputable section

namespace Cert.KernelIdeal.Host

open Cert.KernelIdeal Cert.KernelIdeal.Gen Cert.Decode
open Idealize.ShloMosaic Idealize.ShloMosaic.TcCoe Idealize.SL.Sem Idealize.ShloMosaic.StableHlo Idealize.ShloMosaic.ValueIdx

variable {F : FTy → Type} [FloatOps F]

/-- The gather of token rows at `(R, j)`: the code table at the row the start index `[R, 0]` names, read signed and clamped
    into the table, and column `j`. -/
theorem gather_rows (x1 : IVec S100000x128 32) (idx : IVec S131072x1 32) (y : S131072x128.Idx) :
    Host.gather gather_S100000x128_S131072x1_S131072x128_1_0_n_n_0_1_1128 x1 idx y
      = x1 (ix2 (clampTok (idx (ix2 (⟨(y 0).val, (y 0).isLt⟩ : Fin 131072) (0 : Fin 1)))) (⟨(y 1).val, (y 1).isLt⟩ : Fin 128)) := by
  unfold Host.gather
  refine congrArg x1 (funext fun a => Fin.ext ?_)
  match a with
  | ⟨0, _⟩ =>
    show gather_S100000x128_S131072x1_S131072x128_1_0_n_n_0_1_1128.start y idx 0 + gather_S100000x128_S131072x1_S131072x128_1_0_n_n_0_1_1128.batchCoord y 0 + gather_S100000x128_S131072x1_S131072x128_1_0_n_n_0_1_1128.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S131072x1_S131072x128_1_0_n_n_0_1_1128.startIndexMap from List.mem_singleton.mpr rfl)]
    have hsi : gather_S100000x128_S131072x1_S131072x128_1_0_n_n_0_1_1128.siIdx y ⟨List.idxOf (0 : Fin 2) gather_S100000x128_S131072x1_S131072x128_1_0_n_n_0_1_1128.startIndexMap,
        List.idxOf_lt_length_iff.2 (List.mem_singleton.mpr rfl)⟩
        = ix2 (⟨(y 0).val, (y 0).isLt⟩ : Fin 131072) (0 : Fin 1) := by
      funext b; refine Fin.ext ?_
      match b with
      | ⟨0, _⟩ => rfl
      | ⟨1, _⟩ => rfl
    rw [hsi]
    rfl
  | ⟨1, _⟩ =>
    show gather_S100000x128_S131072x1_S131072x128_1_0_n_n_0_1_1128.start y idx 1 + gather_S100000x128_S131072x1_S131072x128_1_0_n_n_0_1_1128.batchCoord y 1 + gather_S100000x128_S131072x1_S131072x128_1_0_n_n_0_1_1128.offCoord y 1 = (y 1).val
    rw [GatherDims.batchCoord_eq_zero _ _ _ List.not_mem_nil]
    unfold GatherDims.start GatherDims.offCoord
    rw [dif_neg (show (1 : Fin 2) ∉ gather_S100000x128_S131072x1_S131072x128_1_0_n_n_0_1_1128.startIndexMap from by decide),
      dif_pos (show (1 : Fin 2) ∈ gather_S100000x128_S131072x1_S131072x128_1_0_n_n_0_1_1128.sKept from by decide)]
    simp only [Nat.zero_add, Nat.add_zero]
    rfl

variable (m : (ℓ : Loc nD τ sig) → Buf (Elt F) ℓ)

/-- The token ids as launched. -/
abbrev ids (c : Dev nD) : IVec S32x4096 32 := m ((c : Thread nD τ).loc main_arg0)
/-- The code table as launched. -/
abbrev codes (c : Dev nD) : IVec S100000x128 32 := m ((c : Thread nD τ).loc main_arg1)
/-- The codebook as launched. -/
abbrev cbook (c : Dev nD) : FVec F S256x4 .f32 := m ((c : Thread nD τ).loc main_arg2)

/-- The row codes the region finds, as the host operations' term of the arguments. -/
theorem rowCodes_eq (c : Dev nD) :
    (V m c main_v7 : S131072x128.Idx → BitVec 32)
      = Host.gather gather_S100000x128_S131072x1_S131072x128_1_0_n_n_0_1_1128 (codes m c)
          (broadcastInDim S131072x1 ![0] bcast_S131072_S131072x1_0
            (select (cmpi .slt (shapeCast S131072 (ids m c) shapeCasts_S32x4096_S131072)
                (broadcastInDim S131072 ![] bcast_S_S131072 (constantI S_ 32 0#32)))
              (addi (shapeCast S131072 (ids m c) shapeCasts_S32x4096_S131072)
                (broadcastInDim S131072 ![] bcast_S_S131072 (constantI S_ 32 100000#32)))
              (shapeCast S131072 (ids m c) shapeCasts_S32x4096_S131072))) := by
  show StableHlo.after hostOps0 (fun b => m (c, b)) (Proc.devRef .tc main_v7) = _
  after_results
  rfl

/-- ROW CODES AT AN INDEX: row `R = 4096 b + s` holds the codes of the token row `ids[b, s]` names. -/
theorem rowCodes_apply (c : Dev nD) (R : Fin 131072) (j : Fin 128) :
    (V m c main_v7 : S131072x128.Idx → BitVec 32) (ix2 R j)
      = codes m c (ix2 (tokRow (ids m c (ix2 (⟨R.val / 4096, by have := R.isLt; omega⟩ : Fin 32) (⟨R.val % 4096, Nat.mod_lt _ (by decide)⟩ : Fin 4096)))) j) := by
  rw [rowCodes_eq, gather_rows]
  refine congrArg (fun w => codes m c (ix2 (clampTok w) j)) ?_
  refine (broadcastInDim_apply _ bcast_S131072_S131072x1_0 _ _ (ix1 R) (fun a => ?_)).trans ?_
  · match a with
    | ⟨0, _⟩ => show R.val = if (131072 : Nat) = 1 then 0 else R.val; rw [if_neg (by decide)]
  · have hflat : shapeCast S131072 (ids m c) shapeCasts_S32x4096_S131072 (ix1 R)
        = ids m c (ix2 (⟨R.val / 4096, by have := R.isLt; omega⟩ : Fin 32) (⟨R.val % 4096, Nat.mod_lt _ (by decide)⟩ : Fin 4096)) :=
      shapeCast_apply _ shapeCasts_S32x4096_S131072 (ix1 R) _ (by
        rw [Shape.rowMajor_val_two, Shape.rowMajor_val_one]
        show R.val / 4096 * 4096 + R.val % 4096 = R.val
        omega)
    show Scalar.select (IntOp.cmpi .slt (shapeCast S131072 (ids m c) shapeCasts_S32x4096_S131072 (ix1 R)) 0#32)
        (IntOp.addi (shapeCast S131072 (ids m c) shapeCasts_S32x4096_S131072 (ix1 R)) 100000#32)
        (shapeCast S131072 (ids m c) shapeCasts_S32x4096_S131072 (ix1 R)) = _
    rw [hflat]
    rfl

/-- The low half table the region finds. -/
theorem lo_eq (c : Dev nD) :
    (V m c main_v9 : S4x128.Idx → Elt F .f32)
      = extractStridedSlice S4x128 ![0, 0] (transpose S4x256 [1, 0] (cbook m c) transposes_S256x4_S4x256_1_0) slices_S4x256_S4x128_0_0 := by
  show StableHlo.after hostOps0 (fun b => m (c, b)) (Proc.devRef .tc main_v9) = _
  after_results

/-- The high half table the region finds. -/
theorem hi_eq (c : Dev nD) :
    (V m c main_v10 : S4x128.Idx → Elt F .f32)
      = extractStridedSlice S4x128 ![0, 128] (transpose S4x256 [1, 0] (cbook m c) transposes_S256x4_S4x256_1_0) slices_S4x256_S4x128_0_128 := by
  show StableHlo.after hostOps0 (fun b => m (c, b)) (Proc.devRef .tc main_v10) = _
  after_results

/-- The transposed codebook at `(d, k)` is the codebook at `(k, d)`. -/
theorem cbT_apply (x : FVec F S256x4 .f32) (d : Fin 4) (k : Fin 256) :
    transpose S4x256 [1, 0] x transposes_S256x4_S4x256_1_0 (ix2 d k) = x (ix2 k d) :=
  transpose_apply _ x transposes_S256x4_S4x256_1_0 (ix2 d k) (ix2 k d) (fun b => match b with
    | ⟨0, _⟩ => rfl
    | ⟨1, _⟩ => rfl)

/-- LOW TABLE AT AN INDEX: column `d`, lane `l` is codebook row `l`, column `d`. -/
theorem lo_apply (c : Dev nD) (d : Fin 4) (l : Fin 128) :
    (V m c main_v9 : S4x128.Idx → Elt F .f32) (ix2 d l) = cbook m c (ix2 (⟨l.val, by omega⟩ : Fin 256) d) := by
  rw [lo_eq]
  refine (extractStridedSlice_apply _ _ slices_S4x256_S4x128_0_0 (ix2 d l) (ix2 d (⟨l.val, by omega⟩ : Fin 256)) (fun a => ?_)).trans
    (cbT_apply _ d _)
  match a with
  | ⟨0, _⟩ => show d.val = 0 + d.val; omega
  | ⟨1, _⟩ => show l.val = 0 + l.val; omega

/-- HIGH TABLE AT AN INDEX: column `d`, lane `l` is codebook row `l + 128`, column `d`. -/
theorem hi_apply (c : Dev nD) (d : Fin 4) (l : Fin 128) :
    (V m c main_v10 : S4x128.Idx → Elt F .f32) (ix2 d l) = cbook m c (ix2 (⟨l.val + 128, by omega⟩ : Fin 256) d) := by
  rw [hi_eq]
  refine (extractStridedSlice_apply _ _ slices_S4x256_S4x128_0_128 (ix2 d l) (ix2 d (⟨l.val + 128, by omega⟩ : Fin 256)) (fun a => ?_)).trans
    (cbT_apply _ d _)
  match a with
  | ⟨0, _⟩ => show d.val = 0 + d.val; omega
  | ⟨1, _⟩ => show l.val + 128 = 128 + l.val; omega

end Cert.KernelIdeal.Host

end
-- ==== Proof.KernelValue.lean ====
/-
  The kernel program's result is the decode `G` of its arguments, wherever every code is non-negative.

  After the call the program swaps the column and lane axes of the [131072, 4, 128] output and reshapes to
  [32, 4096, 512]: result entry `(b, s, 4 j + d)` is output entry `(4096 b + s, d, j)`. That entry is column `d` of the low
  or of the high half table at the lane of the clipped code — the codebook at row `codeRow` of the code, column `d`
  (`Words.select_rows`) — and the code is block `j` of the token row `ids[b, s]` names.
-/
import proofs.«422497_j11536282157503_3_alg».proof.Proof.ArrayValue
import proofs.«422497_j11536282157503_3_alg».proof.Proof.KernelHost

set_option maxRecDepth 16384

noncomputable section

namespace Cert.KernelIdeal.RunValue

open Cert.KernelIdeal Cert.KernelIdeal.Gen Cert.KernelIdeal.Host Cert.KernelIdeal.ArrayValue Cert.Decode
open Idealize.ShloMosaic Idealize.ShloMosaic.TcCoe Idealize.SL.Sem Idealize.ShloMosaic.StableHlo Idealize.ShloMosaic.ValueIdx

variable {F : FTy → Type} [FloatOps F]

/-- The three host operations after the call, read at an index of the result: the axis swap and the two reshapes
    send result entry `(b, s, q)` to output entry `(4096 b + s, q mod 4, q / 4)`. -/
theorem tail_apply (A : S131072x4x128.Idx → Elt F .f32) (i : S32x4096x512.Idx) :
    shapeCast S32x4096x512 (shapeCast S131072x512 (transpose S131072x128x4 [0, 2, 1] A transposes_S131072x4x128_S131072x128x4_0_2_1)
        shapeCasts_S131072x128x4_S131072x512) shapeCasts_S131072x512_S32x4096x512 i
      = A (ix3 (⟨(i 0).val * 4096 + (i 1).val, by
            have h0 : (i 0).val < 32 := (i 0).isLt; have h1 : (i 1).val < 4096 := (i 1).isLt; omega⟩ : Fin 131072)
          (⟨(i 2).val % 4, Nat.mod_lt _ (by decide)⟩ : Fin 4)
          (⟨(i 2).val / 4, by have h2 : (i 2).val < 512 := (i 2).isLt; omega⟩ : Fin 128)) := by
  have h0 : (i 0).val < 32 := (i 0).isLt
  have h1 : (i 1).val < 4096 := (i 1).isLt
  have h2 : (i 2).val < 512 := (i 2).isLt
  refine (shapeCast_apply _ shapeCasts_S131072x512_S32x4096x512 i
    (ix2 (⟨(i 0).val * 4096 + (i 1).val, by omega⟩ : Fin 131072) (⟨(i 2).val, h2⟩ : Fin 512)) ?_).trans ?_
  · rw [Shape.rowMajor_val_two, Shape.rowMajor_val_three]
    show ((i 0).val * 4096 + (i 1).val) * 512 + (i 2).val = ((i 0).val * 4096 + (i 1).val) * 512 + (i 2).val
    rfl
  refine (shapeCast_apply _ shapeCasts_S131072x128x4_S131072x512 _
    (ix3 (⟨(i 0).val * 4096 + (i 1).val, by omega⟩ : Fin 131072) (⟨(i 2).val / 4, by omega⟩ : Fin 128)
      (⟨(i 2).val % 4, Nat.mod_lt _ (by decide)⟩ : Fin 4)) ?_).trans ?_
  · rw [Shape.rowMajor_val_three, Shape.rowMajor_val_two]
    show (((i 0).val * 4096 + (i 1).val) * 128 + (i 2).val / 4) * 4 + (i 2).val % 4 = ((i 0).val * 4096 + (i 1).val) * 512 + (i 2).val
    omega
  exact transpose_apply _ A transposes_S131072x4x128_S131072x128x4_0_2_1 _ _ (fun b => match b with
    | ⟨0, _⟩ => rfl
    | ⟨1, _⟩ => rfl
    | ⟨2, _⟩ => rfl)

variable (m : (ℓ : Loc nD τ sig) → Buf (Elt F) ℓ) (ρ : Dev nD → PrngReg)

/-- The result buffer after the host tail, as the tail's operations of the call's output array. -/
theorem tail_eq (c : Dev nD) :
    (Pipeline.afterTail₀ cfgs (dats m) 0 (V0 m) [hostOps1] c main_v14 : S32x4096x512.Idx → Elt F .f32)
      = shapeCast S32x4096x512 (shapeCast S131072x512 (transpose S131072x128x4 [0, 2, 1]
          (Pipeline.withArrays (cfgs 0).spec c (V0 m c) (fun w => (dats m 0 c).arrAt w (cfgs 0).N) (Proc.devRef .tc main_v11))
          transposes_S131072x4x128_S131072x128x4_0_2_1) shapeCasts_S131072x128x4_S131072x512) shapeCasts_S131072x512_S32x4096x512 := by
  unfold Pipeline.afterTail₀
  show StableHlo.after hostOps1 _ (Proc.devRef .tc main_v14) = _
  after_results
  rfl

/-- ONE ENTRY OF THE CALL'S OUTPUT IS ONE DECODED ENTRY: row `R = 4096 b + s`, column `d`, lane `j`. -/
theorem arr_decode (c : Dev nD) (hc : ∀ k, 0 ≤ (codes m c k).toInt) (R : Fin 131072) (d : Fin 4) (j : Fin 128) :
    arrAt (V m c main_v7) (V m c main_v9) (V m c main_v10) R d j
      = decodeAt (ids m c) (codes m c) (cbook m c) (⟨R.val / 4096, by have := R.isLt; omega⟩ : Fin 32)
          (⟨R.val % 4096, Nat.mod_lt _ (by decide)⟩ : Fin 4096) j d := by
  unfold arrAt
  rw [rowCodes_apply]
  exact select_rows (fun k => cbook m c (ix2 k d)) (fun l => (V m c main_v9 : S4x128.Idx → Elt F .f32) (ix2 d l))
    (fun l => (V m c main_v10 : S4x128.Idx → Elt F .f32) (ix2 d l)) (fun l => lo_apply m c d l) (fun l => hi_apply m c d l) (hc _)

/-- THE KERNEL PROGRAM'S RESULT IS THE DECODE, where every code of the table is non-negative. -/
theorem result_eq (c : Dev nD) (hc : ∀ k, 0 ≤ (codes m c k).toInt) :
    (Pipeline.afterTail₀ cfgs (dats m) 0 (V0 m) [hostOps1] c main_v14 : S32x4096x512.Idx → Elt F .f32)
      = G (ids m c) (codes m c) (cbook m c) := by
  rw [tail_eq]
  funext i
  have h0 : (i 0).val < 32 := (i 0).isLt
  have h1 : (i 1).val < 4096 := (i 1).isLt
  rw [tail_apply]
  have hA : Pipeline.withArrays (cfgs 0).spec c (V0 m c) (fun w => (dats m 0 c).arrAt w (cfgs 0).N) (Proc.devRef .tc main_v11)
      = arrG (V m c main_v7) (V m c main_v9) (V m c main_v10) :=
    (Pipeline.withArrays_arr spec0 launch0.win.arr_inj c _ _ 3).trans (final m c)
  rw [hA]
  unfold arrG
  rw [arr_decode m c hc]
  have hb : (⟨((i 0).val * 4096 + (i 1).val) / 4096, by omega⟩ : Fin 32) = ⟨(i 0).val, (i 0).isLt⟩ := Fin.ext (by
    show ((i 0).val * 4096 + (i 1).val) / 4096 = (i 0).val; omega)
  have hs : (⟨((i 0).val * 4096 + (i 1).val) % 4096, Nat.mod_lt _ (by decide)⟩ : Fin 4096) = ⟨(i 1).val, (i 1).isLt⟩ := Fin.ext (by
    show ((i 0).val * 4096 + (i 1).val) % 4096 = (i 1).val; omega)
  show decodeAt (ids m c) (codes m c) (cbook m c) (⟨((i 0).val * 4096 + (i 1).val) / 4096, _⟩ : Fin 32)
      (⟨((i 0).val * 4096 + (i 1).val) % 4096, _⟩ : Fin 4096) _ _ = _
  rw [hb, hs]
  rfl

/-- THE RUN: every weakly fair execution of the kernel program terminates with the result at the decode of the
    arguments and the arguments unchanged, from any memory whose code table is non-negative. -/
theorem run (hc : ∀ c k, 0 ≤ (codes m c k).toInt) :
    θ_run defs (onTc (τ := τ) (main (F := F))) ⟨m, fun _ => 0, ρ⟩ (fun r => ∀ c : Dev nD,
      r.2.mem ((c.tc : Thread nD τ).loc main_v14) = G (ids m c) (codes m c) (cbook m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans (result_eq m c (hc c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/-
  The codebook decode: `out[b, s, 4 j + d] = codebook[codes[ids[b, s], j], d]`.

  The reference is two jnp gathers and a reshape. The kernel program gathers the token rows of the code table the same
  way, then expands each code inside a Pallas call: the call clips the code into [0, 255], splits the codebook into its
  rows 0..127 and 128..255, and for each of the four columns selects, lane by lane, between a lane gather of the low half
  and one of the high half; an axis swap and two reshapes then lay the four columns out block by block.

  The two differ on a NEGATIVE code: jnp's indexing wraps `c` in [-256, -1] to row `c + 256`, the kernel clips it to row 0.
  The precondition therefore says that every code is non-negative (codes index the codebook's rows); under it both programs
  read row `min c 255` (`Words.select_rows`, `Words.wrap_code_of_nonneg`), and both results are the one function `Spec.G`
  of the three arguments: `RefValue.ref_eq` for the reference, `KernelValue.result_eq` for the kernel program. No arithmetic
  is done on the codebook's entries, so the finiteness of the codebook is never used.

  The frames of the two kernel programs are the generated ones; the reference's frame is its generated run with the result
  dropped; the idealization rewrote nothing, so `preserves` is `True`.
-/
import proofs.«422497_j11536282157503_3_alg».proof.Defs
import proofs.«422497_j11536282157503_3_alg».proof.Proof.Gen.Kernel
import proofs.«422497_j11536282157503_3_alg».proof.Proof.Gen.Kernel.Skeleton
import proofs.«422497_j11536282157503_3_alg».proof.Proof.Gen.Kernel.Launch
import proofs.«422497_j11536282157503_3_alg».proof.Proof.Gen.Kernel.Points
import proofs.«422497_j11536282157503_3_alg».proof.Proof.Gen.Kernel.Frame
import proofs.«422497_j11536282157503_3_alg».proof.Proof.Gen.KernelIdeal
import proofs.«422497_j11536282157503_3_alg».proof.Proof.Gen.KernelIdeal.Skeleton
import proofs.«422497_j11536282157503_3_alg».proof.Proof.Gen.KernelIdeal.Launch
import proofs.«422497_j11536282157503_3_alg».proof.Proof.Gen.KernelIdeal.Points
import proofs.«422497_j11536282157503_3_alg».proof.Proof.Gen.KernelIdeal.Frame
import proofs.«422497_j11536282157503_3_alg».proof.Proof.Gen.ReferenceIdeal
import proofs.«422497_j11536282157503_3_alg».proof.Proof.Gen.ReferenceIdeal.Run
import proofs.«422497_j11536282157503_3_alg».proof.Proof.Gen.ReferenceIdeal.Read
import proofs.«422497_j11536282157503_3_alg».proof.Proof.Gen.Pre_finite_inputs
import proofs.«422497_j11536282157503_3_alg».proof.Proof.PreDecode
import proofs.«422497_j11536282157503_3_alg».proof.Proof.RefValue
import proofs.«422497_j11536282157503_3_alg».proof.Proof.KernelValue
import Idealize.ShloMosaic.Adequacy
import Idealize.ShloMosaic.Init

noncomputable section

namespace Cert.Proof

open Idealize.ShloMosaic Idealize.SL.Sem

/-- The kernel program at the word level runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the decode `G` of the arguments: the precondition makes every code non-negative, where the
    kernel's clip-and-select and the reference's wrap-and-clamp name the same codebook row. -/
theorem algebraic : Cert.algebraic_KernelIdeal_ReferenceIdeal := by
  intro m ρ m' ρ' hpre hagree
  have hc : ∀ c k, 0 ≤ (Cert.KernelIdeal.Host.codes m c k).toInt := fun c k =>
    Cert.Pre_finite_inputs.Decode.codes_nonneg _ _ _ (hpre c) k
  refine ⟨fun c => Cert.Decode.G (Cert.KernelIdeal.Host.ids m c) (Cert.KernelIdeal.Host.codes m c) (Cert.KernelIdeal.Host.cbook m c),
    Cert.KernelIdeal.RunValue.run m ρ hc, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.ReferenceIdeal.RefValue.ref_eq _ _ _ (hc c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
